-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S16x128x128 : Shape := ⟨3, ![16, 128, 128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S16x128x128 : S_.BroadcastsInDim S16x128x128 (![] : Fin 0 → Fin S16x128x128.rank)
  reducesTo_S16x128x128_S_d0_1_2 : S16x128x128.ReducesTo [0, 1, 2] S_

variable [Facts]

def fn {F : FTy → Type} [FloatOps F] (main_arg0 : FVec F S50000x64 .f32) (main_arg1 : IVec S2x800000 32) (main_arg2 : FVec F S16x128x128 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S16x128x128 .f32 := Host.absf main_arg2
  let main_cst_0 : FVec F S_ .f32 := constant S_ .f32 0x7F800000#32
  let main_v5 : FVec F S16x128x128 .f32 := broadcastInDim S16x128x128 ![] bcast_S_S16x128x128 main_cst_0
  let main_v6 : IVec S16x128x128 1 := cmpf .olt main_v4 main_v5
  let main_c_1 : IVec S_ 1 := constantI S_ 1 1#1
  let main_v7 : IVec S_ 1 := (fun x v => Host.reduce IntOp.andi x v reducesTo_S16x128x128_S_d0_1_2 h_S_) main_v6 main_c_1
  let main_v8 : IVec S_ 1 := andi main_v3 main_v7
  main_v8
-- ==== Kernel.lean ====
abbrev S50000x64 : Shape := ⟨2, ![50000, 64]⟩
abbrev S2x800000 : Shape := ⟨2, ![2, 800000]⟩
abbrev S16x128x128 : Shape := ⟨3, ![16, 128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S800000x16 : Shape := ⟨2, ![800000, 16]⟩
abbrev S6400x128 : Shape := ⟨2, ![6400, 128]⟩
abbrev S6400x16 : Shape := ⟨2, ![6400, 16]⟩
abbrev S1x128x128 : Shape := ⟨3, ![1, 128, 128]⟩
abbrev S128x128 : Shape := ⟨2, ![128, 128]⟩
abbrev S6400 : Shape := ⟨1, ![6400]⟩
abbrev S6400x1 : Shape := ⟨2, ![6400, 1]⟩
abbrev S800000x4x4 : Shape := ⟨3, ![800000, 4, 4]⟩

abbrev nBuf : Space → Nat
  | .hbm => 28
  | .vmem => 5
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S16x128x128, .f32⟩
  | .hbm, ⟨3, _⟩ => ⟨S1x800000, .i32⟩
  | .hbm, ⟨4, _⟩ => ⟨S800000, .i32⟩
  | .hbm, ⟨5, _⟩ => ⟨S1x800000, .i32⟩
  | .hbm, ⟨6, _⟩ => ⟨S800000, .i32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x64, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x64, .f32⟩
  | .hbm, ⟨25, _⟩ => ⟨S800000x128, .f32⟩
  | .hbm, ⟨26, _⟩ => ⟨S800000x16, .f32⟩
  | .hbm, ⟨27, _⟩ => ⟨S800000x4x4, .f32⟩
  | .local _ .vmem, ⟨0, _⟩ => ⟨S6400x128, .f32⟩
  | .local _ .vmem, ⟨1, _⟩ => ⟨S6400x128, .f32⟩
  | .local _ .vmem, ⟨2, _⟩ => ⟨S16x128x128, .f32⟩
  | .local _ .vmem, ⟨3, _⟩ => ⟨S6400x16, .f32⟩
  | .local _ .vmem, ⟨4, _⟩ => ⟨S6400x16, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S6400x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  bitsLt_bf16_f32 : FTy.bits .bf16 < FTy.bits .f32
  inb_S16x128x128_S16x128x128_0_0_0 : ∀ a, (![0, 0, 0] : Fin 3 → Nat) a + S16x128x128.size a ≤ S16x128x128.size a
  h_S16x128x128 : 0 < S16x128x128.numel
  slices_S16x128x128_o0_0_0_S1x128x128 : S16x128x128.Slices ![0, 0, 0] S1x128x128
  shapeCasts_S1x128x128_S128x128 : S1x128x128.ShapeCasts S128x128
  reduces_S6400x128_S6400 : S6400x128.Reduces [1] S6400
  shapeCasts_S6400_S6400x1 : S6400.ShapeCasts S6400x1
  inb_S6400x16_S6400x1_0_0 : ∀ a, (![0, 0] : Fin 2 → Nat) a + S6400x1.size a ≤ S6400x16.size a
  h_S6400x1 : 0 < S6400x1.numel
  slices_S16x128x128_o1_0_0_S1x128x128 : S16x128x128.Slices ![1, 0, 0] S1x128x128
  inb_S6400x16_S6400x1_0_1 : ∀ a, (![0, 1] : Fin 2 → Nat) a + S6400x1.size a ≤ S6400x16.size a
  slices_S16x128x128_o2_0_0_S1x128x128 : S16x128x128.Slices ![2, 0, 0] S1x128x128
  inb_S6400x16_S6400x1_0_2 : ∀ a, (![0, 2] : Fin 2 → Nat) a + S6400x1.size a ≤ S6400x16.size a
  slices_S16x128x128_o3_0_0_S1x128x128 : S16x128x128.Slices ![3, 0, 0] S1x128x128
  inb_S6400x16_S6400x1_0_3 : ∀ a, (![0, 3] : Fin 2 → Nat) a + S6400x1.size a ≤ S6400x16.size a
  slices_S16x128x128_o4_0_0_S1x128x128 : S16x128x128.Slices ![4, 0, 0] S1x128x128
  inb_S6400x16_S6400x1_0_4 : ∀ a, (![0, 4] : Fin 2 → Nat) a + S6400x1.size a ≤ S6400x16.size a
  slices_S16x128x128_o5_0_0_S1x128x128 : S16x128x128.Slices ![5, 0, 0] S1x128x128
  inb_S6400x16_S6400x1_0_5 : ∀ a, (![0, 5] : Fin 2 → Nat) a + S6400x1.size a ≤ S6400x16.size a
  slices_S16x128x128_o6_0_0_S1x128x128 : S16x128x128.Slices ![6, 0, 0] S1x128x128
  inb_S6400x16_S6400x1_0_6 : ∀ a, (![0, 6] : Fin 2 → Nat) a + S6400x1.size a ≤ S6400x16.size a
  slices_S16x128x128_o7_0_0_S1x128x128 : S16x128x128.Slices ![7, 0, 0] S1x128x128
  inb_S6400x16_S6400x1_0_7 : ∀ a, (![0, 7] : Fin 2 → Nat) a + S6400x1.size a ≤ S6400x16.size a
  slices_S16x128x128_o8_0_0_S1x128x128 : S16x128x128.Slices ![8, 0, 0] S1x128x128
  inb_S6400x16_S6400x1_0_8 : ∀ a, (![0, 8] : Fin 2 → Nat) a + S6400x1.size a ≤ S6400x16.size a
  slices_S16x128x128_o9_0_0_S1x128x128 : S16x128x128.Slices ![9, 0, 0] S1x128x128
  inb_S6400x16_S6400x1_0_9 : ∀ a, (![0, 9] : Fin 2 → Nat) a + S6400x1.size a ≤ S6400x16.size a
  slices_S16x128x128_o10_0_0_S1x128x128 : S16x128x128.Slices ![10, 0, 0] S1x128x128
  inb_S6400x16_S6400x1_0_10 : ∀ a, (![0, 10] : Fin 2 → Nat) a + S6400x1.size a ≤ S6400x16.size a
  slices_S16x128x128_o11_0_0_S1x128x128 : S16x128x128.Slices ![11, 0, 0] S1x128x128
  inb_S6400x16_S6400x1_0_11 : ∀ a, (![0, 11] : Fin 2 → Nat) a + S6400x1.size a ≤ S6400x16.size a
  slices_S16x128x128_o12_0_0_S1x128x128 : S16x128x128.Slices ![12, 0, 0] S1x128x128
  inb_S6400x16_S6400x1_0_12 : ∀ a, (![0, 12] : Fin 2 → Nat) a + S6400x1.size a ≤ S6400x16.size a
  slices_S16x128x128_o13_0_0_S1x128x128 : S16x128x128.Slices ![13, 0, 0] S1x128x128
  inb_S6400x16_S6400x1_0_13 : ∀ a, (![0, 13] : Fin 2 → Nat) a + S6400x1.size a ≤ S6400x16.size a
  slices_S16x128x128_o14_0_0_S1x128x128 : S16x128x128.Slices ![14, 0, 0] S1x128x128
  inb_S6400x16_S6400x1_0_14 : ∀ a, (![0, 14] : Fin 2 → Nat) a + S6400x1.size a ≤ S6400x16.size a
  slices_S16x128x128_o15_0_0_S1x128x128 : S16x128x128.Slices ![15, 0, 0] S1x128x128
  inb_S6400x16_S6400x1_0_15 : ∀ a, (![0, 15] : Fin 2 → Nat) a + S6400x1.size a ≤ S6400x16.size a
  shapeCasts_S800000x16_S800000x4x4 : S800000x16.ShapeCasts S800000x4x4
  gather_S50000x64_S800000x1_S800000x64_1_0_n_n_0_1_164_wf : GatherDims.WF S50000x64 S800000x1 S800000x64 [1] [0] [] [0] [] 1 ![1, 64]
  dot_S6400x128_S128x128_S6400x128_1_0_0_1_n_n_wf : DotDims.WF S6400x128 S128x128 S6400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S800000x128.size a
  hwx0_0 : ∀ i : grid0.Coords, EltTy.bits .f32 = 32 ∨ (Rect.block (s := S800000x128) S6400x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128x128.size a ≤ S16x128x128.size a
  hwx0_1 : ∀ i : grid0.Coords, EltTy.bits .f32 = 32 ∨ (Rect.block (s := S16x128x128) S16x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x16.size a ≤ S800000x16.size a
  hwx0_2 : ∀ i : grid0.Coords, EltTy.bits .f32 = 32 ∨ (Rect.block (s := S800000x16) S6400x16.size (cc0_transform_2 i) (hinb0_2 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf

abbrev win0_0 : Pipeline.Window sig grid0 :=
  Pipeline.Window.ofSpec (Memref.whole main_v18) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S6400x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S16x128x128 : Shape := ⟨3, ![16, 128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S1x128x128 : Shape := ⟨3, ![1, 128, 128]⟩
abbrev S128x128 : Shape := ⟨2, ![128, 128]⟩
abbrev S800000x16 : Shape := ⟨2, ![800000, 16]⟩
abbrev S800000x4x4 : Shape := ⟨3, ![800000, 4, 4]⟩

abbrev nBuf : Space → Nat
  | .hbm => 141
  | .vmem => 0
  | .smem => 0
  | _ => 0

abbrev hbmTy0_0 (i : Nat) : BufTy := match i % 128 with
  | 0 => ⟨S50000x64, .f32⟩
  | 1 => ⟨S2x800000, .i32⟩
  | 2 => ⟨S16x128x128, .f32⟩
  | 3 => ⟨S1x800000, .i32⟩
  | 4 => ⟨S800000, .i32⟩
  | 5 => ⟨S1x800000, .i32⟩
  | 6 => ⟨S800000, .i32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S800000x64, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x64, .f32⟩
  | 25 => ⟨S800000x128, .f32⟩
  | 26 => ⟨S1x128x128, .f32⟩
  | 27 => ⟨S128x128, .f32⟩
  | 28 => ⟨S800000x128, .f32⟩
  | 29 => ⟨S800000x128, .f32⟩
  | 30 => ⟨S_, .f32⟩
  | 31 => ⟨S800000, .f32⟩
  | 32 => ⟨S1x128x128, .f32⟩
  | 33 => ⟨S128x128, .f32⟩
  | 34 => ⟨S800000x128, .f32⟩
  | 35 => ⟨S800000x128, .f32⟩
  | 36 => ⟨S_, .f32⟩
  | 37 => ⟨S800000, .f32⟩
  | 38 => ⟨S1x128x128, .f32⟩
  | 39 => ⟨S128x128, .f32⟩
  | 40 => ⟨S800000x128, .f32⟩
  | 41 => ⟨S800000x128, .f32⟩
  | 42 => ⟨S_, .f32⟩
  | 43 => ⟨S800000, .f32⟩
  | 44 => ⟨S1x128x128, .f32⟩
  | 45 => ⟨S128x128, .f32⟩
  | 46 => ⟨S800000x128, .f32⟩
  | 47 => ⟨S800000x128, .f32⟩
  | 48 => ⟨S_, .f32⟩
  | 49 => ⟨S800000, .f32⟩
  | 50 => ⟨S1x128x128, .f32⟩
  | 51 => ⟨S128x128, .f32⟩
  | 52 => ⟨S800000x128, .f32⟩
  | 53 => ⟨S800000x128, .f32⟩
  | 54 => ⟨S_, .f32⟩
  | 55 => ⟨S800000, .f32⟩
  | 56 => ⟨S1x128x128, .f32⟩
  | 57 => ⟨S128x128, .f32⟩
  | 58 => ⟨S800000x128, .f32⟩
  | 59 => ⟨S800000x128, .f32⟩
  | 60 => ⟨S_, .f32⟩
  | 61 => ⟨S800000, .f32⟩
  | 62 => ⟨S1x128x128, .f32⟩
  | 63 => ⟨S128x128, .f32⟩
  | 64 => ⟨S800000x128, .f32⟩
  | 65 => ⟨S800000x128, .f32⟩
  | 66 => ⟨S_, .f32⟩
  | 67 => ⟨S800000, .f32⟩
  | 68 => ⟨S1x128x128, .f32⟩
  | 69 => ⟨S128x128, .f32⟩
  | 70 => ⟨S800000x128, .f32⟩
  | 71 => ⟨S800000x128, .f32⟩
  | 72 => ⟨S_, .f32⟩
  | 73 => ⟨S800000, .f32⟩
  | 74 => ⟨S1x128x128, .f32⟩
  | 75 => ⟨S128x128, .f32⟩
  | 76 => ⟨S800000x128, .f32⟩
  | 77 => ⟨S800000x128, .f32⟩
  | 78 => ⟨S_, .f32⟩
  | 79 => ⟨S800000, .f32⟩
  | 80 => ⟨S1x128x128, .f32⟩
  | 81 => ⟨S128x128, .f32⟩
  | 82 => ⟨S800000x128, .f32⟩
  | 83 => ⟨S800000x128, .f32⟩
  | 84 => ⟨S_, .f32⟩
  | 85 => ⟨S800000, .f32⟩
  | 86 => ⟨S1x128x128, .f32⟩
  | 87 => ⟨S128x128, .f32⟩
  | 88 => ⟨S800000x128, .f32⟩
  | 89 => ⟨S800000x128, .f32⟩
  | 90 => ⟨S_, .f32⟩
  | 91 => ⟨S800000, .f32⟩
  | 92 => ⟨S1x128x128, .f32⟩
  | 93 => ⟨S128x128, .f32⟩
  | 94 => ⟨S800000x128, .f32⟩
  | 95 => ⟨S800000x128, .f32⟩
  | 96 => ⟨S_, .f32⟩
  | 97 => ⟨S800000, .f32⟩
  | 98 => ⟨S1x128x128, .f32⟩
  | 99 => ⟨S128x128, .f32⟩
  | 100 => ⟨S800000x128, .f32⟩
  | 101 => ⟨S800000x128, .f32⟩
  | 102 => ⟨S_, .f32⟩
  | 103 => ⟨S800000, .f32⟩
  | 104 => ⟨S1x128x128, .f32⟩
  | 105 => ⟨S128x128, .f32⟩
  | 106 => ⟨S800000x128, .f32⟩
  | 107 => ⟨S800000x128, .f32⟩
  | 108 => ⟨S_, .f32⟩
  | 109 => ⟨S800000, .f32⟩
  | 110 => ⟨S1x128x128, .f32⟩
  | 111 => ⟨S128x128, .f32⟩
  | 112 => ⟨S800000x128, .f32⟩
  | 113 => ⟨S800000x128, .f32⟩
  | 114 => ⟨S_, .f32⟩
  | 115 => ⟨S800000, .f32⟩
  | 116 => ⟨S1x128x128, .f32⟩
  | 117 => ⟨S128x128, .f32⟩
  | 118 => ⟨S800000x128, .f32⟩
  | 119 => ⟨S800000x128, .f32⟩
  | 120 => ⟨S_, .f32⟩
  | 121 => ⟨S800000, .f32⟩
  | 122 => ⟨S800000x1, .f32⟩
  | 123 => ⟨S800000x1, .f32⟩
  | 124 => ⟨S800000x1, .f32⟩
  | 125 => ⟨S800000x1, .f32⟩
  | 126 => ⟨S800000x1, .f32⟩
  | 127 => ⟨S800000x1, .f32⟩
  | _ => ⟨S50000x64, .f32⟩

abbrev hbmTy0_1 (i : Nat) : BufTy := match i % 128 with
  | 0 => ⟨S800000x1, .f32⟩
  | 1 => ⟨S800000x1, .f32⟩
  | 2 => ⟨S800000x1, .f32⟩
  | 3 => ⟨S800000x1, .f32⟩
  | 4 => ⟨S800000x1, .f32⟩
  | 5 => ⟨S800000x1, .f32⟩
  | 6 => ⟨S800000x1, .f32⟩
  | 7 => ⟨S800000x1, .f32⟩
  | 8 => ⟨S800000x1, .f32⟩
  | 9 => ⟨S800000x1, .f32⟩
  | 10 => ⟨S800000x16, .f32⟩
  | 11 => ⟨S800000x16, .f32⟩
  | 12 => ⟨S800000x4x4, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_7 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_8 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_9 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_10 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_11 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_12 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_13 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_cst_14 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_cst_15 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_cst_16 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_cst_17 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  slices_S16x128x128_S1x128x128_0_0_0 : S16x128x128.Slices ![0, 0, 0] S1x128x128
  shapeCasts_S1x128x128_S128x128 : S1x128x128.ShapeCasts S128x128
  reducesTo_S800000x128_S800000_d1 : S800000x128.ReducesTo [1] S800000
  h_S_ : 0 < S_.numel
  slices_S16x128x128_S1x128x128_1_0_0 : S16x128x128.Slices ![1, 0, 0] S1x128x128
  slices_S16x128x128_S1x128x128_2_0_0 : S16x128x128.Slices ![2, 0, 0] S1x128x128
  slices_S16x128x128_S1x128x128_3_0_0 : S16x128x128.Slices ![3, 0, 0] S1x128x128
  slices_S16x128x128_S1x128x128_4_0_0 : S16x128x128.Slices ![4, 0, 0] S1x128x128
  slices_S16x128x128_S1x128x128_5_0_0 : S16x128x128.Slices ![5, 0, 0] S1x128x128
  slices_S16x128x128_S1x128x128_6_0_0 : S16x128x128.Slices ![6, 0, 0] S1x128x128
  slices_S16x128x128_S1x128x128_7_0_0 : S16x128x128.Slices ![7, 0, 0] S1x128x128
  slices_S16x128x128_S1x128x128_8_0_0 : S16x128x128.Slices ![8, 0, 0] S1x128x128
  slices_S16x128x128_S1x128x128_9_0_0 : S16x128x128.Slices ![9, 0, 0] S1x128x128
  slices_S16x128x128_S1x128x128_10_0_0 : S16x128x128.Slices ![10, 0, 0] S1x128x128
  slices_S16x128x128_S1x128x128_11_0_0 : S16x128x128.Slices ![11, 0, 0] S1x128x128
  slices_S16x128x128_S1x128x128_12_0_0 : S16x128x128.Slices ![12, 0, 0] S1x128x128
  slices_S16x128x128_S1x128x128_13_0_0 : S16x128x128.Slices ![13, 0, 0] S1x128x128
  slices_S16x128x128_S1x128x128_14_0_0 : S16x128x128.Slices ![14, 0, 0] S1x128x128
  slices_S16x128x128_S1x128x128_15_0_0 : S16x128x128.Slices ![15, 0, 0] S1x128x128
  concatenates_S800000x1_S800000x1_S800000x1_S800000x1_S800000x1_S800000x1_S800000x1_S800000x1_S800000x1_S800000x1_S800000x1_S800000x1_S800000x1_S800000x1_S800000x1_S800000x1_S800000x16_d1 : Shape.Concatenates [S800000x1, S800000x1, S800000x1, S800000x1, S800000x1, S800000x1, S800000x1, S800000x1, S800000x1, S800000x1, S800000x1, S800000x1, S800000x1, S800000x1, S800000x1, S800000x1] S800000x16 1
  shapeCasts_S800000x16_S800000x4x4 : S800000x16.ShapeCasts S800000x4x4
  gather_S50000x64_S800000x1_S800000x64_1_0_n_n_0_1_164_wf : GatherDims.WF S50000x64 S800000x1 S800000x64 [1] [0] [] [0] [] 1 ![1, 64]
  dot_S800000x128_S128x128_S800000x128_1_0_0_1_n_n_wf : DotDims.WF S800000x128 S128x128 S800000x128 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf

class Facts : Prop extends Facts₀ where

variable [Facts]
-- ==== Proof.QuadForm.lean ====
/-
  The quadratic form of one row against one matrix, and the array of its hyperbolic tangents.

  For a row `z` of 128 extended reals and a 128 × 128 matrix `A` the form is `∑ j, (∑ k, z k · A k j) · z j`:
  the row times the matrix, then the inner product with the row again. The result array holds, at edge `e` and
  matrix number `o`, the hyperbolic tangent of the form of row `e` of the edge features against matrix `o`.
  The form only looks at one row of the features and one matrix, so a block of rows gives the same entries as the
  whole array at the block's rows.
-/
import Idealize.ShloMosaic.PureOps.Ideal
import Idealize.ShloMosaic.Lib.ValueIdx

noncomputable section

open scoped BigOperators

namespace Cert.QuadForm

open Idealize.ShloMosaic Idealize.ShloMosaic.ValueIdx

/-- `zᵀ A z` over the extended reals, summed in the order both programs sum it: first `z · A`, column by column,
    then the inner product with `z`. -/
def rowForm (z : Fin 128 → EReal) (A : Fin 128 → Fin 128 → EReal) : EReal :=
  ∑ j : Fin 128, (∑ k : Fin 128, z k * A k j) * z j

/-- Entry `(e, o)` of the result over all 800000 edges: the tangent of the form of row `e` against matrix `o`. -/
def edgeEntry (Z : (⟨2, ![800000, 128]⟩ : Shape).Idx → EReal) (M : (⟨3, ![16, 128, 128]⟩ : Shape).Idx → EReal)
    (e : Fin 800000) (o : Fin 16) : EReal :=
  Ideal.tanh (rowForm (fun k => Z (ix2 e k)) (fun k j => M (ix3 o k j)))

/-- The result array `[800000, 16]`. -/
def edgeForms (Z : (⟨2, ![800000, 128]⟩ : Shape).Idx → EReal) (M : (⟨3, ![16, 128, 128]⟩ : Shape).Idx → EReal) :
    (⟨2, ![800000, 16]⟩ : Shape).Idx → EReal :=
  fun i => edgeEntry Z M ⟨(i 0).val, (i 0).isLt⟩ ⟨(i 1).val, (i 1).isLt⟩

/-- Entry `(r, o)` of the same over a block of 6400 rows. -/
def blockEntry (z : (⟨2, ![6400, 128]⟩ : Shape).Idx → EReal) (M : (⟨3, ![16, 128, 128]⟩ : Shape).Idx → EReal)
    (r : Fin 6400) (o : Fin 16) : EReal :=
  Ideal.tanh (rowForm (fun k => z (ix2 r k)) (fun k j => M (ix3 o k j)))

/-- The block `[6400, 16]` of results. -/
def blockForms (z : (⟨2, ![6400, 128]⟩ : Shape).Idx → EReal) (M : (⟨3, ![16, 128, 128]⟩ : Shape).Idx → EReal) :
    (⟨2, ![6400, 16]⟩ : Shape).Idx → EReal :=
  fun y => blockEntry z M ⟨(y 0).val, (y 0).isLt⟩ ⟨(y 1).val, (y 1).isLt⟩

/-- A block entry whose row is row `e` of the whole array, against the same matrix (its number possibly spelt two
    ways), is the whole array's entry at row `e`. -/
theorem blockEntry_eq_edgeEntry (z : (⟨2, ![6400, 128]⟩ : Shape).Idx → EReal) (Z : (⟨2, ![800000, 128]⟩ : Shape).Idx → EReal)
    (Mb M : (⟨3, ![16, 128, 128]⟩ : Shape).Idx → EReal) (r : Fin 6400) (e : Fin 800000) (o o' : Fin 16)
    (hz : ∀ k : Fin 128, z (ix2 r k) = Z (ix2 e k)) (hM : ∀ k j : Fin 128, Mb (ix3 o k j) = M (ix3 o' k j)) :
    blockEntry z Mb r o = edgeEntry Z M e o' := by
  have hrow : (fun k => z (ix2 r k)) = fun k => Z (ix2 e k) := funext hz
  have hmat : (fun k j => Mb (ix3 o k j)) = fun k j => M (ix3 o' k j) := funext fun k => funext fun j => hM k j
  unfold blockEntry edgeEntry
  rw [hrow, hmat]

end Cert.QuadForm

end
-- ==== Proof.LibRowReduce.lean ====
/-
  Reductions along the rows of a matrix, read at a row written by its coordinate.

  For an `[a, b]` array reduced over its second axis the reduced index `i` with column `k` put back is `(i, k)`;
  so the vector unit's sum of a row is the sum over the columns of that row, its maximum the fold of `max` over them
  from the accumulator's value, and the host's reduce with a maximum body the same fold from the initial value.
-/
import Idealize.ShloMosaic.Lib.Pipeline.Value
import Idealize.ShloMosaic.Lib.ValueIdx
import Idealize.ShloMosaic.PureOps.Ideal.Laws

noncomputable section

open scoped BigOperators

namespace Cert.LibRowReduce

open Idealize.ShloMosaic Idealize.ShloMosaic.ValueIdx

variable {a b : ℕ} {φ : FTy}

/-- The reduced index `i` with column `k` put back on the second axis is `(i, k)`. -/
theorem lift_row (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- The vector unit's sum over the second axis, at row `i`: the sum over the columns of that row. -/
theorem multiReduction_add_row (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_row h i k)

/-- The vector unit's maximum over the second axis, at row `i`: the fold of `max` over the columns of that row. -/
theorem multiReduction_maximumf_row (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  exact congrArg (fun f => Finset.fold max (Ideal.ofBits φ acc) f (Finset.univ : Finset (Fin b)))
    (funext fun k => congrArg src (lift_row h i k))

/-- The host's reduce with a maximum body over the second axis, at row `i`: the fold of `max` from the initial value
    over the columns of that row. -/
theorem hostReduce_maximumf_row {u : Shape} (x : FVec Ideal ⟨2, ![a, b]⟩ φ) (init : u.Idx → Ideal φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (i : Fin a) :
    Host.reduce FloatOps.maximumf x init h' hu (ix1 i)
      = (Finset.univ : Finset (Fin b)).fold max (init (Shape.Idx.first hu)) (fun k => x (ix2 i k)) := by
  rw [Host.reduce_eq_fold_single FloatOps.maximumf x init h' h hu]
  exact congrArg (fun f => Finset.fold max (init (Shape.Idx.first hu)) f (Finset.univ : Finset (Fin b)))
    (funext fun k => congrArg x (lift_row h i k))

end Cert.LibRowReduce

end
-- ==== Proof.LibKeepdims.lean ====
/-
  Layout and reduction forms that a `keepdims=True` reduction meets, read at an index written by coordinates.

  A sum kept as a column — `[a]` viewed as `[a, 1]` — and that column, or a single `[1, 1]` cell, spread
  back over an `[a, b]` block read one entry of the smaller array; and a host sum over the last two axes of a
  rank-4 array is, at each index of the two axes kept, the double sum over the two coordinates dropped (every
  index that drops to `(p, q)` is `(p, q, l, k)` for exactly one pair `(l, k)`).
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-! ## A column made of a vector, and spread over a block -/

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A single cell `[1, 1]` broadcast to `[a, b]` reads that cell at every index. -/
theorem broadcastTo_11_ab_apply {a b : ℕ} (v : (⟨2, ![1, 1]⟩ : Shape).Idx → α) (h : (⟨2, ![1, 1]⟩ : Shape).Broadcasts ⟨2, ![a, b]⟩)
    (i : Fin a) (j : Fin b) : broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ => rfl
  | ⟨1, _⟩ => rfl

/-! ## A host sum over the last two of four axes -/

/-- The host's float sum over axes 2 and 3 of an `[a, b, c, d]` array, at `(p, q)`: the initial value plus the
    sum over `l` and `k` of the operand at `(p, q, l, k)`. The indices that drop to `(p, q)` correspond one to
    one to the pairs `(l, k)` of their last two coordinates. -/
theorem hostReduceAdd_lastTwo {a b c d : ℕ}
    (h : (⟨4, ![a, b, c, d]⟩ : Shape).ReducesTo [2, 3] ⟨2, ![a, b]⟩)
    (x : (⟨4, ![a, b, c, d]⟩ : Shape).Idx → EReal) (init : EReal) (p : Fin a) (q : Fin b) :
    Ideal.hostReduceAdd h x init (ix2 p q) = init + ∑ l : Fin c, ∑ k : Fin d, x (ix4 p q l k) := by
  unfold Ideal.hostReduceAdd
  refine congrArg (init + ·) ?_
  rw [← Finset.sum_product' (Finset.univ : Finset (Fin c)) (Finset.univ : Finset (Fin d)) (fun l k => x (ix4 p q l k))]
  -- the axes kept are 0 and 1, whatever the extents: a dropped index has the source's first two coordinates
  have d0 : ∀ i : (⟨4, ![a, b, c, d]⟩ : Shape).Idx, (h.drop i 0 : ℕ) = i 0 := fun _ => rfl
  have d1 : ∀ i : (⟨4, ![a, b, c, d]⟩ : Shape).Idx, (h.drop i 1 : ℕ) = i 1 := fun _ => rfl
  refine Finset.sum_nbij' (fun i => (i 2, i 3)) (fun lk => ix4 p q lk.1 lk.2) ?_ ?_ ?_ ?_ ?_
  · intro i _; exact Finset.mem_product.2 ⟨Finset.mem_univ _, Finset.mem_univ _⟩
  · intro lk _
    refine Finset.mem_filter.2 ⟨Finset.mem_univ _, funext fun ax => Fin.ext ?_⟩
    match ax with
    | ⟨0, _⟩ => exact d0 _
    | ⟨1, _⟩ => exact d1 _
  · intro i hi
    have hj := (Finset.mem_filter.1 hi).2
    funext ax; apply Fin.ext
    match ax with
    | ⟨0, _⟩ => show p.val = (i 0).val; rw [← d0 i, hj]; rfl
    | ⟨1, _⟩ => show q.val = (i 1).val; rw [← d1 i, hj]; rfl
    | ⟨2, _⟩ => rfl
    | ⟨3, _⟩ => rfl
  · intro lk _; rfl
  · intro i hi
    have hj := (Finset.mem_filter.1 hi).2
    refine congrArg x ?_
    funext ax; apply Fin.ext
    match ax with
    | ⟨0, _⟩ => show (i 0).val = p.val; rw [← d0 i, hj]; rfl
    | ⟨1, _⟩ => show (i 1).val = q.val; rw [← d1 i, hj]; rfl
    | ⟨2, _⟩ => rfl
    | ⟨3, _⟩ => rfl

end Cert.LibKeepdims

end
-- ==== Proof.LibDense.lean ====
/-
  AN AFFINE LAYER READ AT AN ENTRY, at the extended reals. For a row-major product of an [M, K] matrix with a [K, N]
  matrix (one contracted axis, no batch axis) the contraction index is its one coordinate `k : Fin K`, and the entry
  (r, c) of the product is `∑ k, X (r, k) * W (k, c)`, whether the product is a block product into a zero accumulator or
  the host's dot product. An affine layer adds the bias row's entry of column c; the leaky rectifier keeps a non-negative
  entry and scales a negative one by the f32 word of 0.2.

  * `plain_dot_apply`, `plain_matmul_apply`: both products as that sum over `Fin K`;
  * `affine`, `leaky`, `denseLeaky`: the layer entry by entry; `affine_congr`: it only looks at row r, column c and
    the bias entry of column c, so a block of rows of X gives the same entries as the whole X at the block's rows;
  * `pay_affine`, `leaky_vec`: a block product plus a bias row repeated down the block, then the rectifier, as a vector
    unit writes them; `host_affine`, `leaky_host`: the same as host operations write them (the bias vector made a row
    and then repeated; the rectifier's constants as rank-0 splats).

  Every statement holds at any M, K, N (N = 1 included: a column of extent one has only the index 0).
-/
import Idealize.ShloMosaic.PureOps.Ideal.Laws
import Idealize.ShloMosaic.Lib.ValueIdx
import Idealize.ShloMosaic.Lib.Pipeline.Value

noncomputable section
namespace Cert.Lib.Dense
open Idealize.ShloMosaic
open Idealize.ShloMosaic.ValueIdx

abbrev ce (M K N : Nat) : (DotDims.plain M K N).contr.Idx ≃ Fin K := contrEquiv1 (DotDims.plain M K N) K rfl rfl

theorem plain_lhsIdx (M K N : Nat) (j : (⟨2, ![M, N]⟩ : Shape).Idx) (k : Fin K) :
    (DotDims.plain M K N).lhsIdx j ((ce M K N).symm k) = ix2 (n0 := M) (n1 := K) (j 0) k := by
  funext a; apply Fin.ext
  match a with
  | ⟨0, _⟩ => rfl
  | ⟨1, _⟩ =>
    exact (DotDims.lhsIdx_val_of_single (DotDims.plain M K N) (cl := 1) rfl j _).trans (contrEquiv1_symm_val _ K rfl rfl k)

theorem plain_rhsIdx (M K N : Nat) (j : (⟨2, ![M, N]⟩ : Shape).Idx) (k : Fin K) :
    (DotDims.plain M K N).rhsIdx j ((ce M K N).symm k) = ix2 (n0 := K) (n1 := N) k (j 1) := by
  funext a; apply Fin.ext
  match a with
  | ⟨0, _⟩ =>
    exact (DotDims.rhsIdx_val_of_single (DotDims.plain M K N) (cr := 0) rfl j _).trans (contrEquiv1_symm_val _ K rfl rfl k)
  | ⟨1, _⟩ => rfl

theorem plain_dot_apply (M K N : Nat) (prec : Option ContractPrecision) (sched : HostSchedule)
    (X : FVec Ideal ⟨2, ![M, K]⟩ .f32) (W : FVec Ideal ⟨2, ![K, N]⟩ .f32) (j : (⟨2, ![M, N]⟩ : Shape).Idx) :
    FloatOps.dotGeneral (DotDims.plain M K N) prec sched X W j = ∑ k : Fin K, X (ix2 (j 0) k) * W (ix2 k (j 1)) := by
  rw [Ideal.dotGeneral_apply, ← Equiv.sum_comp (ce M K N).symm]
  exact Finset.sum_congr rfl fun k _ => by rw [plain_lhsIdx, plain_rhsIdx]

theorem plain_matmul_apply (M K N : Nat) (prec : Option ContractPrecision)
    (X : FVec Ideal ⟨2, ![M, K]⟩ .f32) (W : FVec Ideal ⟨2, ![K, N]⟩ .f32) (j : (⟨2, ![M, N]⟩ : Shape).Idx) :
    FloatOps.matmul (DotDims.plain M K N) prec X W (constant _ .f32 0x00000000#32) j = ∑ k : Fin K, X (ix2 (j 0) k) * W (ix2 k (j 1)) := by
  rw [Ideal.matmul_constant_zero_apply, ← Equiv.sum_comp (ce M K N).symm]
  exact Finset.sum_congr rfl fun k _ => by rw [plain_lhsIdx, plain_rhsIdx]

/-- One entry of an affine layer: row `j 0` of `X` against column `j 1` of `W`, plus the bias row's entry of that column. -/
def affine {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun j => (∑ k : Fin K, X (ix2 (j 0) k) * W (ix2 k (j 1))) + B (ix2 0 (j 1))

/-- The leaky rectifier with slope the f32 word of 0.2, as both programs spell it: `y` where `y ≥ 0`, else the slope times `y`. -/
def leaky (y : EReal) : EReal :=
  Scalar.select (FloatOps.cmpf (F := Ideal) (φ := .f32) .oge y (Scalar.ofBits .f32 0x00000000#32)) y
    (FloatOps.mulf (F := Ideal) (φ := .f32) (Scalar.ofBits .f32 0x3E4CCCCD#32) y)

def denseLeaky {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal := fun j => leaky (affine X W B j)

theorem affine_congr {Mb M K N : Nat} (xb : (⟨2, ![Mb, K]⟩ : Shape).Idx → EReal) (X : (⟨2, ![M, K]⟩ : Shape).Idx → EReal)
    (wb W : (⟨2, ![K, N]⟩ : Shape).Idx → EReal) (bb B : (⟨2, ![1, N]⟩ : Shape).Idx → EReal)
    (y : (⟨2, ![Mb, N]⟩ : Shape).Idx) (i : (⟨2, ![M, N]⟩ : Shape).Idx)
    (hx : ∀ k : Fin K, xb (ix2 (y 0) k) = X (ix2 (i 0) k)) (hw : ∀ k : Fin K, wb (ix2 k (y 1)) = W (ix2 k (i 1)))
    (hb : bb (ix2 0 (y 1)) = B (ix2 0 (i 1))) : affine xb wb bb y = affine X W B i := by
  unfold affine
  rw [hb]
  exact congrArg (· + _) (Finset.sum_congr rfl fun k _ => by rw [hx k, hw k])

/-- The kernel body's value at a block index: the block product into a zero accumulator plus the broadcast bias row. -/
theorem pay_affine {M K N : Nat} (x : FVec Ideal ⟨2, ![M, K]⟩ .f32) (w : FVec Ideal ⟨2, ![K, N]⟩ .f32) (b : FVec Ideal ⟨2, ![1, N]⟩ .f32)
    (sx : (⟨2, ![M, K]⟩ : Shape).ShapeCasts ⟨2, ![M, K]⟩) (sb : (⟨2, ![1, N]⟩ : Shape).ShapeCasts ⟨2, ![1, N]⟩)
    (bt : (⟨2, ![1, N]⟩ : Shape).Broadcasts ⟨2, ![M, N]⟩) (y : (⟨2, ![M, N]⟩ : Shape).Idx) :
    addf (matmul (DotDims.plain M K N) none (shapeCast ⟨2, ![M, K]⟩ x sx) w (constant ⟨2, ![M, N]⟩ .f32 0x00000000#32))
        (broadcastTo ⟨2, ![M, N]⟩ (shapeCast ⟨2, ![1, N]⟩ b sb) bt) y = affine x w b y := by
  rw [shapeCast_self, shapeCast_self]
  show FloatOps.matmul (DotDims.plain M K N) none x w (constant _ .f32 0x00000000#32) y + broadcastTo ⟨2, ![M, N]⟩ b bt y = _
  rw [plain_matmul_apply, broadcastTo_apply b bt y (ix2 0 (y 1))]
  · rfl
  · intro a
    match a with
    | ⟨0, _⟩ => simp
    | ⟨1, _⟩ =>
      show (y 1).val = if N = 1 then 0 else (y 1).val
      split_ifs with h
      · have := (y 1).isLt; simp at this; omega
      · rfl

/-- The kernel's rectifier read at an index. -/
theorem leaky_vec {S : Shape} (Y : FVec Ideal S .f32) (y : S.Idx) :
    select (cmpf .oge Y (broadcast S (Scalar.ofBits .f32 0x00000000#32))) Y (mulf (broadcast S (Scalar.ofBits .f32 0x3E4CCCCD#32)) Y) y = leaky (Y y) := rfl

/-- A splat of a rank-0 constant reads as the constant's value everywhere. -/
theorem splat0_apply {S : Shape} (w : BitVec 32) (e : (⟨0, ![]⟩ : Shape).BroadcastsInDim S (![] : Fin 0 → Fin S.rank)) (j : S.Idx) :
    broadcastInDim S ![] e (constant (F := Ideal) ⟨0, ![]⟩ .f32 w) j = Scalar.ofBits .f32 w := by
  rw [broadcastInDim_apply _ e _ j (fun a => a.elim0) (fun a => a.elim0)]
  rfl

/-- The host's rectifier read at an index. -/
theorem leaky_host {S : Shape} (Y : FVec Ideal S .f32) (e e' : (⟨0, ![]⟩ : Shape).BroadcastsInDim S (![] : Fin 0 → Fin S.rank)) (j : S.Idx) :
    select (cmpf .oge Y (broadcastInDim S ![] e (constant ⟨0, ![]⟩ .f32 0x00000000#32))) Y
      (mulf (broadcastInDim S ![] e' (constant ⟨0, ![]⟩ .f32 0x3E4CCCCD#32)) Y) j = leaky (Y j) := by
  show Scalar.select (FloatOps.cmpf .oge (Y j) (broadcastInDim S ![] e (constant (F := Ideal) ⟨0, ![]⟩ .f32 0x00000000#32) j)) (Y j)
      (FloatOps.mulf (broadcastInDim S ![] e' (constant (F := Ideal) ⟨0, ![]⟩ .f32 0x3E4CCCCD#32) j) (Y j)) = _
  rw [splat0_apply, splat0_apply]
  rfl

/-- The host's affine layer at an index: the dot product plus the bias vector, first made a row [1, N] and then
    repeated down the rows, is the affine layer over the bias reshaped to a row. -/
theorem host_affine {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2))
    (sc : (⟨1, ![N]⟩ : Shape).ShapeCasts ⟨2, ![1, N]⟩) (j : (⟨2, ![M, N]⟩ : Shape).Idx) :
    addf (Host.dotGeneral (DotDims.plain M K N) none X W)
        (broadcastInDim ⟨2, ![M, N]⟩ ![0, 1] e2 (broadcastInDim ⟨2, ![1, N]⟩ ![1] e1 b)) j
      = affine X W (shapeCast ⟨2, ![1, N]⟩ b sc) j := by
  show FloatOps.dotGeneral (DotDims.plain M K N) none _ X W j + broadcastInDim ⟨2, ![M, N]⟩ ![0, 1] e2 (broadcastInDim ⟨2, ![1, N]⟩ ![1] e1 b) j = _
  rw [plain_dot_apply]
  unfold affine
  refine congrArg (_ + ·) ?_
  rw [broadcastInDim_apply _ e2 _ j (ix2 0 (j 1)), broadcastInDim_apply _ e1 b (ix2 0 (j 1)) (ix1 (j 1)),
    shapeCast_addUnit_apply ![N] b sc (ix2 0 (j 1))]
  · refine congrArg b (funext fun a => ?_)
    match a with
    | ⟨0, _⟩ => rfl
  · intro a
    match a with
    | ⟨0, _⟩ =>
      show (j 1).val = if N = 1 then 0 else (j 1).val
      split_ifs with h
      · have := (j 1).isLt; simp at this; omega
      · rfl
  · intro a
    match a with
    | ⟨0, _⟩ => simp
    | ⟨1, _⟩ =>
      show (j 1).val = if N = 1 then 0 else (j 1).val
      split_ifs with h
      · have := (j 1).isLt; simp at this; omega
      · rfl

/-- A bias vector as the one row of a [1, N] matrix. -/
def biasRow {N : Nat} (b : (⟨1, ![N]⟩ : Shape).Idx → EReal) : (⟨2, ![1, N]⟩ : Shape).Idx → EReal := fun i => b (ix1 (i 1))

/-- Reshaping a vector [N] to [1, N] gives that row. -/
theorem shapeCast_row {N : Nat} (b : FVec Ideal ⟨1, ![N]⟩ .f32) (sc : (⟨1, ![N]⟩ : Shape).ShapeCasts ⟨2, ![1, N]⟩) :
    shapeCast ⟨2, ![1, N]⟩ b sc = biasRow b := by
  funext i
  rw [shapeCast_addUnit_apply ![N] b sc i]
  refine congrArg b (funext fun a => ?_)
  match a with
  | ⟨0, _⟩ => rfl

/-- The host's affine layer, whole: its entries are `affine` over the bias row. -/
theorem host_affine_row {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2)) :
    addf (Host.dotGeneral (DotDims.plain M K N) none X W)
        (broadcastInDim ⟨2, ![M, N]⟩ ![0, 1] e2 (broadcastInDim ⟨2, ![1, N]⟩ ![1] e1 b)) = affine X W (biasRow b) := by
  funext j
  show FloatOps.dotGeneral (DotDims.plain M K N) none _ X W j + broadcastInDim ⟨2, ![M, N]⟩ ![0, 1] e2 (broadcastInDim ⟨2, ![1, N]⟩ ![1] e1 b) j = _
  rw [plain_dot_apply]
  unfold affine
  refine congrArg (_ + ·) ?_
  rw [broadcastInDim_apply _ e2 _ j (ix2 0 (j 1)), broadcastInDim_apply _ e1 b (ix2 0 (j 1)) (ix1 (j 1))]
  · rfl
  · intro a
    match a with
    | ⟨0, _⟩ =>
      show (j 1).val = if N = 1 then 0 else (j 1).val
      split_ifs with h
      · have := (j 1).isLt; simp at this; omega
      · rfl
  · intro a
    match a with
    | ⟨0, _⟩ => simp
    | ⟨1, _⟩ =>
      show (j 1).val = if N = 1 then 0 else (j 1).val
      split_ifs with h
      · have := (j 1).isLt; simp at this; omega
      · rfl

/-- The host's rectified affine layer, whole, is `denseLeaky` over the bias row. -/
theorem host_denseLeaky {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2))
    (e e' : (⟨0, ![]⟩ : Shape).BroadcastsInDim ⟨2, ![M, N]⟩ (![] : Fin 0 → Fin 2)) :
    select (cmpf .oge (addf (Host.dotGeneral (DotDims.plain M K N) none X W)
          (broadcastInDim ⟨2, ![M, N]⟩ ![0, 1] e2 (broadcastInDim ⟨2, ![1, N]⟩ ![1] e1 b)))
        (broadcastInDim ⟨2, ![M, N]⟩ ![] e (constant ⟨0, ![]⟩ .f32 0x00000000#32)))
      (addf (Host.dotGeneral (DotDims.plain M K N) none X W)
          (broadcastInDim ⟨2, ![M, N]⟩ ![0, 1] e2 (broadcastInDim ⟨2, ![1, N]⟩ ![1] e1 b)))
      (mulf (broadcastInDim ⟨2, ![M, N]⟩ ![] e' (constant ⟨0, ![]⟩ .f32 0x3E4CCCCD#32))
        (addf (Host.dotGeneral (DotDims.plain M K N) none X W)
          (broadcastInDim ⟨2, ![M, N]⟩ ![0, 1] e2 (broadcastInDim ⟨2, ![1, N]⟩ ![1] e1 b))))
      = denseLeaky X W (biasRow b) := by
  rw [host_affine_row]
  funext j
  exact leaky_host _ e e' j

/-- An affine layer with no rectifier, named like its rectified sibling. -/
def dense {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal := affine X W B

end Cert.Lib.Dense
-- ==== Proof.ColumnForm.lean ====
/-
  One column of the result, as each program computes it, is the quadratic form of the row against one matrix.

  Both programs take matrix `o` out of the stack `[16, 128, 128]` as a slab `[1, 128, 128]` viewed as a
  `128 × 128` matrix, multiply the rows by it, multiply the product entry by entry with the rows again and sum
  each row. On the vector unit the operands of the product are first narrowed to bf16, which at the extended reals
  changes nothing, the product goes into a zero accumulator, the row sums are kept as a column `[6400, 1]` and the
  tangent is taken at once. On the host the product is a dot product, the row sums start from a zero initial value
  and are spread to a column `[800000, 1]`; the tangent comes later, after the sixteen columns are put side by side.
-/
import proofs.«120045_j9174050144889_1_alg».proof.Proof.QuadForm
import proofs.«120045_j9174050144889_1_alg».proof.Proof.LibRowReduce
import proofs.«120045_j9174050144889_1_alg».proof.Proof.LibKeepdims
import proofs.«120045_j9174050144889_1_alg».proof.Proof.LibDense
import Idealize.ShloMosaic.PureOps.Ideal.Laws
import Idealize.ShloMosaic.Lib.Pipeline.Value
import Idealize.ShloMosaic.Lib.ValueIdx

noncomputable section

open scoped BigOperators

namespace Cert.ColumnForm

open Idealize.ShloMosaic Idealize.ShloMosaic.ValueIdx Cert.QuadForm

/-- Matrix `o` of the stack, cut out as the slab `[1, 128, 128]` at offset `(o, 0, 0)` and viewed as `[128, 128]`,
    holds at `(k, j)` the stack's entry `(o, k, j)`. -/
theorem slab_apply {α : Type} (M : (⟨3, ![16, 128, 128]⟩ : Shape).Idx → α) (o : ℕ) (ho : o < 16)
    (hs : (⟨3, ![16, 128, 128]⟩ : Shape).Slices ![o, 0, 0] ⟨3, ![1, 128, 128]⟩)
    (hc : (⟨3, ![1, 128, 128]⟩ : Shape).ShapeCasts ⟨2, ![128, 128]⟩) (k j : Fin 128) :
    shapeCast ⟨2, ![128, 128]⟩ (extractStridedSlice ⟨3, ![1, 128, 128]⟩ ![o, 0, 0] M hs) hc (ix2 k j)
      = M (ix3 ⟨o, ho⟩ k j) := by
  refine (shapeCast_dropUnit_apply ![128, 128] _ hc (ix2 k j)).trans ?_
  refine extractStridedSlice_apply ![o, 0, 0] M hs _ (ix3 ⟨o, ho⟩ k j) fun a => ?_
  match a with
  | ⟨0, _⟩ => show o = o + 0; rfl
  | ⟨1, _⟩ => show k.val = 0 + k.val; omega
  | ⟨2, _⟩ => show j.val = 0 + j.val; omega

/-- Row `r` of a `[R, 128]` array times that matrix, at column `j`: `∑ k, z (r, k) · M (o, k, j)`, the operands
    at any float formats. -/
theorem product_apply {R : ℕ} {φ₁ φ₂ : FTy} (z : FVec Ideal ⟨2, ![R, 128]⟩ φ₁) (W : FVec Ideal ⟨2, ![128, 128]⟩ φ₂)
    (r : Fin R) (j : Fin 128) :
    ∑ q : (DotDims.plain R 128 128).contr.Idx,
        z ((DotDims.plain R 128 128).lhsIdx (ix2 r j) q) * W ((DotDims.plain R 128 128).rhsIdx (ix2 r j) q)
      = ∑ k : Fin 128, z (ix2 r k) * W (ix2 k j) := by
  rw [← Equiv.sum_comp (Cert.Lib.Dense.ce R 128 128).symm]
  refine Finset.sum_congr rfl fun k _ => ?_
  rw [Cert.Lib.Dense.plain_lhsIdx, Cert.Lib.Dense.plain_rhsIdx]
  rfl

/-- The vector unit's column `o` over a block of 6400 rows, at row `r`: the tangent of the form of that row. -/
theorem vector_column (z : FVec Ideal ⟨2, ![6400, 128]⟩ .f32) (M : FVec Ideal ⟨3, ![16, 128, 128]⟩ .f32) (o : ℕ) (ho : o < 16)
    (hb : FTy.bf16.bits < FTy.f32.bits)
    (hs : (⟨3, ![16, 128, 128]⟩ : Shape).Slices ![o, 0, 0] ⟨3, ![1, 128, 128]⟩)
    (hc : (⟨3, ![1, 128, 128]⟩ : Shape).ShapeCasts ⟨2, ![128, 128]⟩)
    (hr : (⟨2, ![6400, 128]⟩ : Shape).Reduces [1] ⟨1, ![6400]⟩) (hφ : FKind.Formats .f32)
    (hacc : (0x00000000#32 : BitVec FTy.f32.bits) = FKind.add.neutral .f32 hφ)
    (hc2 : (⟨1, ![6400]⟩ : Shape).ShapeCasts ⟨2, ![6400, 1]⟩) (r : Fin 6400) (u : Fin 1) :
    tanh (shapeCast ⟨2, ![6400, 1]⟩ (multiReduction .add [1] ⟨1, ![6400]⟩
        (mulf (matmul (DotDims.plain 6400 128 128) none (truncf .bf16 z hb)
            (shapeCast ⟨2, ![128, 128]⟩ (extractStridedSlice ⟨3, ![1, 128, 128]⟩ ![o, 0, 0] (truncf .bf16 M hb) hs) hc)
            (constant ⟨2, ![6400, 128]⟩ .f32 0x00000000#32)) z)
        0x00000000#32 hr hφ hacc) hc2) (ix2 r u)
      = blockEntry z M r ⟨o, ho⟩ := by
  show Ideal.tanh (shapeCast ⟨2, ![6400, 1]⟩ _ hc2 (ix2 r u)) = _
  unfold blockEntry
  refine congrArg Ideal.tanh ?_
  refine (Cert.LibKeepdims.shapeCast_a_a1_apply _ hc2 r u).trans ?_
  refine (Cert.LibRowReduce.multiReduction_add_row _ _ hr hφ hacc r).trans ?_
  unfold rowForm
  refine Finset.sum_congr rfl fun j _ => ?_
  show FloatOps.matmul (DotDims.plain 6400 128 128) none (truncf .bf16 z hb) _ (constant _ .f32 0x00000000#32) (ix2 r j)
      * z (ix2 r j) = _
  refine congrArg (· * z (ix2 r j)) ?_
  refine (Ideal.matmul_constant_zero_apply (DotDims.plain 6400 128 128) none _ _ (ix2 r j)).trans ?_
  refine (product_apply _ _ r j).trans ?_
  refine Finset.sum_congr rfl fun k _ => ?_
  show z (ix2 r k) * _ = _
  refine congrArg (z (ix2 r k) * ·) ?_
  exact slab_apply (truncf .bf16 M hb) o ho hs hc k j

/-- The host's column `o` over all 800000 rows, before the tangent, at row `e`: the form of that row. -/
theorem host_column (Z : FVec Ideal ⟨2, ![800000, 128]⟩ .f32) (M : FVec Ideal ⟨3, ![16, 128, 128]⟩ .f32) (o : ℕ) (ho : o < 16)
    (hs : (⟨3, ![16, 128, 128]⟩ : Shape).Slices ![o, 0, 0] ⟨3, ![1, 128, 128]⟩)
    (hc : (⟨3, ![1, 128, 128]⟩ : Shape).ShapeCasts ⟨2, ![128, 128]⟩)
    (hr' : (⟨2, ![800000, 128]⟩ : Shape).ReducesTo [1] ⟨1, ![800000]⟩) (hu : 0 < (⟨0, ![]⟩ : Shape).numel)
    (hbc : (⟨1, ![800000]⟩ : Shape).BroadcastsInDim ⟨2, ![800000, 1]⟩ ![0]) (e : Fin 800000) (u : Fin 1) :
    broadcastInDim ⟨2, ![800000, 1]⟩ ![0] hbc
        (Host.reduceAdd (mulf (Host.dotGeneral (DotDims.plain 800000 128 128) none Z
            (shapeCast ⟨2, ![128, 128]⟩ (extractStridedSlice ⟨3, ![1, 128, 128]⟩ ![o, 0, 0] M hs) hc)) Z)
          (constant (F := Ideal) ⟨0, ![]⟩ .f32 0x00000000#32) hr' hu) (ix2 e u)
      = rowForm (fun k => Z (ix2 e k)) (fun k j => M (ix3 ⟨o, ho⟩ k j)) := by
  refine (broadcastInDim_apply _ hbc _ (ix2 e u) (ix1 e) fun a => ?_).trans ?_
  · match a with
    | ⟨0, _⟩ => show e.val = if (800000 : ℕ) = 1 then 0 else e.val; rw [if_neg (by decide)]
  simp only [Host.reduceAdd, Ideal.hostReduceAdd_def]
  rw [Ideal.hostReduceAdd_single hr' (by decide)]
  show Ideal.ofBits .f32 0x00000000#32 + _ = _
  rw [Ideal.ofBits_zero_f32, zero_add]
  unfold rowForm
  refine Finset.sum_congr rfl fun j _ => ?_
  have hl : (Shape.Reduces.lift (s := ⟨2, ![800000, 128]⟩) (t := ⟨1, ![800000]⟩) (a := 1) (by decide) (ix1 e) j)
      = ix2 e (⟨j.val, j.isLt⟩ : Fin 128) := Cert.LibRowReduce.lift_row _ e j
  rw [hl]
  show FloatOps.dotGeneral (DotDims.plain 800000 128 128) none .single Z _ (ix2 e j) * Z (ix2 e j) = _
  refine congrArg (· * Z (ix2 e j)) ?_
  refine (Ideal.dotGeneral_apply (DotDims.plain 800000 128 128) none .single _ _ (ix2 e j)).trans ?_
  refine (product_apply _ _ e j).trans ?_
  refine Finset.sum_congr rfl fun k _ => ?_
  refine congrArg (Z (ix2 e k) * ·) ?_
  exact slab_apply M o ho hs hc k j

/-- Sixteen columns `[800000, 1]` as the list of shaped arrays a concatenation takes. -/
abbrev sixteen {α : Type} (c : Fin 16 → ((⟨2, ![800000, 1]⟩ : Shape).Idx → α)) : List ((s : Shape) × (s.Idx → α)) :=
  [⟨⟨2, ![800000, 1]⟩, c 0⟩, ⟨⟨2, ![800000, 1]⟩, c 1⟩, ⟨⟨2, ![800000, 1]⟩, c 2⟩, ⟨⟨2, ![800000, 1]⟩, c 3⟩,
   ⟨⟨2, ![800000, 1]⟩, c 4⟩, ⟨⟨2, ![800000, 1]⟩, c 5⟩, ⟨⟨2, ![800000, 1]⟩, c 6⟩, ⟨⟨2, ![800000, 1]⟩, c 7⟩,
   ⟨⟨2, ![800000, 1]⟩, c 8⟩, ⟨⟨2, ![800000, 1]⟩, c 9⟩, ⟨⟨2, ![800000, 1]⟩, c 10⟩, ⟨⟨2, ![800000, 1]⟩, c 11⟩,
   ⟨⟨2, ![800000, 1]⟩, c 12⟩, ⟨⟨2, ![800000, 1]⟩, c 13⟩, ⟨⟨2, ![800000, 1]⟩, c 14⟩, ⟨⟨2, ![800000, 1]⟩, c 15⟩]

/-- That list is the family `c` listed in order. -/
theorem sixteen_eq_ofFn {α : Type} (c : Fin 16 → ((⟨2, ![800000, 1]⟩ : Shape).Idx → α)) :
    sixteen c = List.ofFn fun n : Fin 16 => (⟨⟨2, ![800000, 1]⟩, c n⟩ : (s : Shape) × (s.Idx → α)) := rfl

/-- Sixteen columns `[800000, 1]` put side by side along axis 1, read at `(e, o)`: column `o` at row `e`. -/
theorem sixteen_columns_apply {α : Type} (c : Fin 16 → ((⟨2, ![800000, 1]⟩ : Shape).Idx → α))
    (h : Shape.Concatenates ((sixteen c).map (·.1)) ⟨2, ![800000, 16]⟩ 1) (e : Fin 800000) (o : Fin 16) :
    concatenate ⟨2, ![800000, 16]⟩ 1 (sixteen c) h (ix2 e o) = c o (ix2 e (0 : Fin 1)) := by
  refine concatenate_ofFn_unit_apply (t := ⟨2, ![800000, 16]⟩) (s₁ := ⟨2, ![800000, 1]⟩) 1 c h rfl rfl (ix2 e o) o rfl
    (ix2 e (0 : Fin 1)) fun b hb => ?_
  match b with
  | ⟨0, _⟩ => rfl
  | ⟨1, _⟩ => exact absurd rfl hb

end Cert.ColumnForm

end
-- ==== Proof.KernelBlock.lean ====
/-
  What the kernel body leaves in its output block, as one function of the two input blocks.

  The body stores sixteen columns into the `[6400, 16]` block; column `o` holds, at row `r`, the tangent of the
  quadratic form of row `r` of the feature block against matrix `o` of the stack. The sixteen payloads are the same
  expression at the sixteen slab offsets, so each is an instance of the one column statement, and the sixteen
  columns tile the block: the block is the function `blockForms` of the feature block and the stack.
-/
import proofs.«120045_j9174050144889_1_alg».proof.Proof.Gen.KernelIdeal.Frame
import proofs.«120045_j9174050144889_1_alg».proof.Proof.ColumnForm

set_option maxRecDepth 16384

noncomputable section

namespace Cert.KernelIdeal.Block

open Cert.KernelIdeal Cert.KernelIdeal.Gen
open Idealize.ShloMosaic Idealize.ShloMosaic.ValueIdx Cert.QuadForm Cert.ColumnForm

theorem zero2 : (![0, 0] : Fin 2 → Nat) = fun _ => 0 := funext fun a => by fin_cases a <;> rfl
theorem zero3 : (![0, 0, 0] : Fin 3 → Nat) = fun _ => 0 := funext fun a => by fin_cases a <;> rfl

/-- The body's column at slab offset `o`, over the loaded feature block `x0` (which the body first views at its own
    shape, a view that changes nothing) and the loaded stack `x1`: at row `r` the tangent of the form of row `r`
    against matrix `o`. Every one of the sixteen payloads unfolds to this expression at its own offset. -/
theorem column (x0 : Vec Ideal S6400x128 .f32) (x1 : Vec Ideal S16x128x128 .f32) (o : ℕ) (ho : o < 16)
    (hs : S16x128x128.Slices ![o, 0, 0] S1x128x128) (r : Fin 6400) (u : Fin 1) :
    tanh (shapeCast S6400x1 (multiReduction .add [1] S6400
        (mulf (matmul dot_S6400x128_S128x128_S6400x128_1_0_0_1_n_n none (k0_pay5 (F := Ideal) x0)
            (shapeCast S128x128 (extractStridedSlice S1x128x128 ![o, 0, 0] (k0_pay6 (F := Ideal) x1) hs) shapeCasts_S1x128x128_S128x128)
            (constant S6400x128 .f32 0x00000000#32)) (k0_pay4 (F := Ideal) x0))
        0x00000000#32 reduces_S6400x128_S6400 (.inl rfl) rfl) shapeCasts_S6400_S6400x1) (ix2 r u)
      = blockEntry x0 x1 r ⟨o, ho⟩ :=
  (vector_column (shapeCast S6400x128 x0 shapeCasts_S6400x128_S6400x128) x1 o ho bitsLt_bf16_f32 hs
    shapeCasts_S1x128x128_S128x128 reduces_S6400x128_S6400 (.inl rfl) rfl shapeCasts_S6400_S6400x1 r u).trans
    (by rw [shapeCast_self])

/-- A column payload that holds the entries of column `o` agrees with `blockForms` on the column's rectangle. -/
theorem piece_column (x0 : Vec Ideal S6400x128 .f32) (x1 : Vec Ideal S16x128x128 .f32) (o : ℕ) (ho : o < 16)
    (inb : ∀ a, (![0, o] : Fin 2 → Nat) a + S6400x1.size a ≤ S6400x16.size a) (w : S6400x1.Idx → EReal)
    (hw : ∀ (r : Fin 6400) (u : Fin 1), w (ix2 r u) = blockEntry x0 x1 r ⟨o, ho⟩)
    (x : (Rect.unit (s := S6400x16) ![0, o] S6400x1.size inb).shape.Idx) :
    w x = blockForms x0 x1 ((Rect.unit (s := S6400x16) ![0, o] S6400x1.size inb).emb x) := by
  obtain ⟨r, u, rfl⟩ : ∃ (r : Fin 6400) (u : Fin 1), x = ix2 r u := ⟨x 0, x 1, eq_ix2 x⟩
  rw [hw r u]
  unfold blockForms
  have hu : u.val = 0 := by omega
  have e0 : (⟨((Rect.unit (s := S6400x16) ![0, o] S6400x1.size inb).emb (ix2 r u) 0).val,
      ((Rect.unit (s := S6400x16) ![0, o] S6400x1.size inb).emb (ix2 r u) 0).isLt⟩ : Fin 6400) = r :=
    Fin.ext (by show 0 + 1 * r.val = r.val; omega)
  have e1 : (⟨((Rect.unit (s := S6400x16) ![0, o] S6400x1.size inb).emb (ix2 r u) 1).val,
      ((Rect.unit (s := S6400x16) ![0, o] S6400x1.size inb).emb (ix2 r u) 1).isLt⟩ : Fin 16) = ⟨o, ho⟩ :=
    Fin.ext (by show o + 1 * u.val = o; omega)
  rw [e0, e1]

/-- The body's sixteen stores leave `blockForms` of the two input blocks: the last store listed first, column 15
    down to column 0. -/
theorem out_eq (x0 : Vec Ideal S6400x128 .f32) (x1 : Vec Ideal S16x128x128 .f32) :
    out0_2 (F := Ideal) x0 x1 = blockForms x0 x1 := by
  funext y
  unfold out0_2
  simp only [View.ld_unit_zero (S := S6400x128) zero2, View.ld_unit_zero (S := S16x128x128) zero3]
  refine View.canon_apply_of_pieces (Val := Elt Ideal) (blockForms x0 x1) _ ?_ y (cover0_2 _ _ _ _ _ _ _ _ _ _ _ _ _ _ _ _ y)
  intro p hp x
  simp only [List.mem_cons, List.mem_nil_iff, or_false] at hp
  rcases hp with rfl | rfl | rfl | rfl | rfl | rfl | rfl | rfl | rfl | rfl | rfl | rfl | rfl | rfl | rfl | rfl
  · exact piece_column x0 x1 15 (by decide) inb_S6400x16_S6400x1_0_15 _ (column x0 x1 15 (by decide) slices_S16x128x128_o15_0_0_S1x128x128) x
  · exact piece_column x0 x1 14 (by decide) inb_S6400x16_S6400x1_0_14 _ (column x0 x1 14 (by decide) slices_S16x128x128_o14_0_0_S1x128x128) x
  · exact piece_column x0 x1 13 (by decide) inb_S6400x16_S6400x1_0_13 _ (column x0 x1 13 (by decide) slices_S16x128x128_o13_0_0_S1x128x128) x
  · exact piece_column x0 x1 12 (by decide) inb_S6400x16_S6400x1_0_12 _ (column x0 x1 12 (by decide) slices_S16x128x128_o12_0_0_S1x128x128) x
  · exact piece_column x0 x1 11 (by decide) inb_S6400x16_S6400x1_0_11 _ (column x0 x1 11 (by decide) slices_S16x128x128_o11_0_0_S1x128x128) x
  · exact piece_column x0 x1 10 (by decide) inb_S6400x16_S6400x1_0_10 _ (column x0 x1 10 (by decide) slices_S16x128x128_o10_0_0_S1x128x128) x
  · exact piece_column x0 x1 9 (by decide) inb_S6400x16_S6400x1_0_9 _ (column x0 x1 9 (by decide) slices_S16x128x128_o9_0_0_S1x128x128) x
  · exact piece_column x0 x1 8 (by decide) inb_S6400x16_S6400x1_0_8 _ (column x0 x1 8 (by decide) slices_S16x128x128_o8_0_0_S1x128x128) x
  · exact piece_column x0 x1 7 (by decide) inb_S6400x16_S6400x1_0_7 _ (column x0 x1 7 (by decide) slices_S16x128x128_o7_0_0_S1x128x128) x
  · exact piece_column x0 x1 6 (by decide) inb_S6400x16_S6400x1_0_6 _ (column x0 x1 6 (by decide) slices_S16x128x128_o6_0_0_S1x128x128) x
  · exact piece_column x0 x1 5 (by decide) inb_S6400x16_S6400x1_0_5 _ (column x0 x1 5 (by decide) slices_S16x128x128_o5_0_0_S1x128x128) x
  · exact piece_column x0 x1 4 (by decide) inb_S6400x16_S6400x1_0_4 _ (column x0 x1 4 (by decide) slices_S16x128x128_o4_0_0_S1x128x128) x
  · exact piece_column x0 x1 3 (by decide) inb_S6400x16_S6400x1_0_3 _ (column x0 x1 3 (by decide) slices_S16x128x128_o3_0_0_S1x128x128) x
  · exact piece_column x0 x1 2 (by decide) inb_S6400x16_S6400x1_0_2 _ (column x0 x1 2 (by decide) slices_S16x128x128_o2_0_0_S1x128x128) x
  · exact piece_column x0 x1 1 (by decide) inb_S6400x16_S6400x1_0_1 _ (column x0 x1 1 (by decide) slices_S16x128x128_o1_0_0_S1x128x128) x
  · exact piece_column x0 x1 0 (by decide) inb_S6400x16_S6400x1_0_0 _ (column x0 x1 0 (by decide) slices_S16x128x128_o0_0_0_S1x128x128) x

end Cert.KernelIdeal.Block

end
-- ==== Proof.KernelArray.lean ====
/-
  The kernel's result array after the run, and the program's result.

  The grid has 125 points; point `t` stages rows `6400·t … 6400·t + 6399` of the edge features, the whole matrix
  stack, and writes back rows `6400·t … 6400·t + 6399` of the `[800000, 16]` output. What it writes back is
  `blockForms` of its two input blocks, and a block of rows of the features gives the whole array's entries at those
  rows, so point `t`'s block is block `t` of `edgeForms` of the features and the stack as the region finds them.
  Row `e` lies in the block of point `e / 6400`, so the blocks cover the array and the array ends at `edgeForms`.
  The one host line after the region views that array as `[800000, 4, 4]`.
-/
import proofs.«120045_j9174050144889_1_alg».proof.Proof.Gen.KernelIdeal.Frame
import proofs.«120045_j9174050144889_1_alg».proof.Proof.KernelBlock

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx Cert.QuadForm
open Idealize.ShloMosaic.Pipeline (Dat)

variable (m : (ℓ : Loc nD τ sig) → Buf (Elt Ideal) ℓ) (ρ : Dev nD → PrngReg)

/-- The edge features `[800000, 128]` as the region finds them (the host lines before it have built them). -/
abbrev feats (c : Dev nD) : Vec Ideal S800000x128 .f32 := V m c main_v18
/-- The matrix stack as the region finds it. -/
abbrev stack (c : Dev nD) : Vec Ideal S16x128x128 .f32 := V m c main_arg2
/-- Point `t`'s block of the features, -/
abbrev featBlk (c : Dev nD) (t : Fin cfg0.N) : Vec Ideal S6400x128 .f32 := iblk m c 0 t
/-- and its block of the stack (the whole stack at every point). -/
abbrev stackBlk (c : Dev nD) (t : Fin cfg0.N) : Vec Ideal S16x128x128 .f32 := iblk m c 1 t

/-- The printed index maps over the grid: the feature and output windows move one block of rows per point, the stack's
    window stays at block 0. -/
theorem idx_facts : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- Row `r` of point `t`'s feature block is row `6400·t + r` of the features. -/
theorem featBlk_apply (c : Dev nD) (t : Fin cfg0.N) (r : Fin 6400) (k : Fin 128) (e : Fin 800000)
    (he : e.val = t.val * 6400 + r.val) : featBlk m c t (ix2 r k) = feats m c (ix2 e k) := by
  show V m c main_v18 (((cfg0.win 0).blk t).view.emb (ix2 r k)) = V m c main_v18 (ix2 e k)
  obtain ⟨h0, h1, -⟩ := idx_facts t
  refine congrArg (V m c main_v18) (funext fun a => Fin.ext ?_)
  match a with
  | ⟨0, _⟩ => show win0_0.index t (0 : Fin 2) * 6400 + 1 * r.val = e.val; omega
  | ⟨1, _⟩ => show win0_0.index t (1 : Fin 2) * 128 + 1 * k.val = k.val; omega

/-- Point `t`'s block of the stack is the stack. -/
theorem stackBlk_apply (c : Dev nD) (t : Fin cfg0.N) (o o' : Fin 16) (k j : Fin 128) (ho : o'.val = o.val) :
    stackBlk m c t (ix3 o k j) = stack m c (ix3 o' k j) := by
  show V m c main_arg2 (((cfg0.win 1).blk t).view.emb (ix3 o k j)) = V m c main_arg2 (ix3 o' k j)
  obtain ⟨-, -, h0, h1, h2, -⟩ := idx_facts t
  refine congrArg (V m c main_arg2) (funext fun a => Fin.ext ?_)
  match a with
  | ⟨0, _⟩ => show win0_1.index t (0 : Fin 3) * 16 + 1 * o.val = o'.val; omega
  | ⟨1, _⟩ => show win0_1.index t (1 : Fin 3) * 128 + 1 * k.val = k.val; omega
  | ⟨2, _⟩ => show win0_1.index t (2 : Fin 3) * 128 + 1 * j.val = j.val; omega

/-- WHAT POINT `t` WRITES BACK is block `t` of `edgeForms` of the features and the stack. -/
theorem flushed_eq (c : Dev nD) (t : Fin cfg0.N) :
    (dats m 0 c).flushed 2 t = ((cfg0.win 2).blk t).view.read (Elt Ideal) (edgeForms (feats m c) (stack m c)) := by
  show (cfg0.win 2).cut (grid0.coords t) ((dats m 0 c).after 2 t) = _
  rw [after0_2, Cert.KernelIdeal.Block.out_eq]
  funext y
  show blockForms (featBlk m c t) (stackBlk m c t) y
    = edgeForms (feats m c) (stack m c) (((cfg0.win 2).blk t).view.emb y)
  obtain ⟨-, -, -, -, -, h0, h1⟩ := idx_facts t
  have hr : (y 0).val < 6400 := (y 0).isLt
  have ho : (y 1).val < 16 := (y 1).isLt
  have e0 : ((((cfg0.win 2).blk t).view.emb y) 0).val = t.val * 6400 + (y 0).val := by
    show win0_2.index t (0 : Fin 2) * 6400 + 1 * (y 0).val = _; omega
  have e1 : ((((cfg0.win 2).blk t).view.emb y) 1).val = (y 1).val := by
    show win0_2.index t (1 : Fin 2) * 16 + 1 * (y 1).val = _; omega
  unfold blockForms edgeForms
  exact blockEntry_eq_edgeEntry _ _ _ _ ⟨(y 0).val, hr⟩ _ ⟨(y 1).val, ho⟩ _
    (fun k => featBlk_apply m c t ⟨(y 0).val, hr⟩ k _ e0)
    (fun k j => stackBlk_apply m c t ⟨(y 1).val, ho⟩ _ k j e1)

/-- An index of the output array is in point `t`'s block iff each coordinate is in the block's range on its axis. -/
theorem mem_blk (t : Fin cfg0.N) (i : S800000x16.Idx) :
    i ∈ ((cfg0.win 2).blk t).view.set ↔ ∀ a : Fin 2, win0_2.index t a * S6400x16.size a ≤ (i a).val
      ∧ (i a).val < win0_2.index t a * S6400x16.size a + S6400x16.size a := by
  show i ∈ ((View.whole main_v19).slice (win0_2.rect t)).set ↔ _
  rw [View.set_slice_whole, Rect.mem_set_unit]
  exact Iff.rfl

/-- Every index of the output array is in the block of the point its row number over 6400 names. -/
theorem cover (i : S800000x16.Idx) :
    ∃ t : Fin cfg0.N, (cfg0.win 2).flush t = true ∧ i ∈ ((cfg0.win 2).blk t).view.set := by
  have hi0 : (i 0).val < 800000 := (i 0).isLt
  have hi1 : (i 1).val < 16 := (i 1).isLt
  have hN : cfg0.N = 125 := N_0
  have hlt : (i 0).val / 6400 < cfg0.N := by rw [hN]; omega
  refine ⟨⟨(i 0).val / 6400, hlt⟩, flush0_2 _, ?_⟩
  rw [mem_blk]
  obtain ⟨-, -, -, -, -, h0, h1⟩ := idx_facts ⟨(i 0).val / 6400, hlt⟩
  have h0' : win0_2.index (⟨(i 0).val / 6400, hlt⟩ : Fin cfg0.N) (0 : Fin 2) = (i 0).val / 6400 := h0
  intro a
  match a with
  | ⟨0, _⟩ =>
    show win0_2.index (⟨(i 0).val / 6400, hlt⟩ : Fin cfg0.N) (0 : Fin 2) * 6400 ≤ (i 0).val
      ∧ (i 0).val < win0_2.index (⟨(i 0).val / 6400, hlt⟩ : Fin cfg0.N) (0 : Fin 2) * 6400 + 6400
    omega
  | ⟨1, _⟩ =>
    show win0_2.index (⟨(i 0).val / 6400, hlt⟩ : Fin cfg0.N) (1 : Fin 2) * 16 ≤ (i 1).val
      ∧ (i 1).val < win0_2.index (⟨(i 0).val / 6400, hlt⟩ : Fin cfg0.N) (1 : Fin 2) * 16 + 16
    omega

/-- THE OUTPUT ARRAY after the region: `edgeForms` of the features and the stack. -/
theorem final (c : Dev nD) : (dats m 0 c).arrAt 2 cfg0.N = edgeForms (feats m c) (stack m c) :=
  (dats m 0 c).arrAt_eq_of_cover 2 (edgeForms (feats m c) (stack m c)) (fun t _ => flushed_eq m c t) cover

/-- The program's result: the line after the region views the output array as `[800000, 4, 4]`. -/
theorem result_eq (c : Dev nD) :
    Pipeline.afterTail₀ cfgs (dats m) 0 (V0 m) [hostOps1] c main_v20
      = shapeCast S800000x4x4 (edgeForms (feats m c) (stack m c)) shapeCasts_S800000x16_S800000x4x4 := by
  unfold Pipeline.afterTail₀
  show StableHlo.after hostOps1 _ (Proc.devRef .tc main_v20) = _
  after_results
  refine congrArg (fun x => shapeCast S800000x4x4 x shapeCasts_S800000x16_S800000x4x4) ?_
  exact (Pipeline.withArrays_arr spec0 launch0.win.arr_inj c _ _ 2).trans (final m c)

/-- The run, read: the result at the reshaped `edgeForms`, the arguments unchanged. -/
theorem run : θ_run defs (onTc (τ := τ) (main (F := Ideal))) ⟨m, fun _ => 0, ρ⟩ fun r => ∀ c : Dev nD,
      r.2.mem ((c.tc : Thread nD τ).loc main_v20)
        = shapeCast S800000x4x4 (edgeForms (feats m c) (stack m c)) shapeCasts_S800000x16_S800000x4x4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v20 (Pipeline.mem_restRefs_of main_v20 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩)
    (run_main m ρ)

end Cert.KernelIdeal.Whole

end
-- ==== Proof.RefValue.lean ====
/-
  The reference's result read entry by entry.

  The reference builds the edge features `Z` (the same host lines as the kernel's program), and for each of the
  sixteen matrices takes the matrix out of the stack, multiplies `Z` by it, multiplies the product entry by entry with
  `Z`, sums each row and spreads the sums to a column `[800000, 1]`. Column `o` holds at row `e` the quadratic form
  of row `e` of `Z` against matrix `o`. The sixteen columns are put side by side, the tangent is taken entry by entry:
  that is `edgeForms Z M`; the last line views it as `[800000, 4, 4]`.
-/
import proofs.«120045_j9174050144889_1_alg».proof.Proof.Gen.ReferenceIdeal.Read
import proofs.«120045_j9174050144889_1_alg».proof.Proof.ColumnForm

set_option maxRecDepth 16384

noncomputable section

namespace Cert.ReferenceIdeal.RefValue

open Cert.ReferenceIdeal Cert.ReferenceIdeal.Gen Cert.ReferenceIdeal.Read
open Idealize.ShloMosaic Idealize.ShloMosaic.ValueIdx Cert.QuadForm Cert.ColumnForm

/-- The host's column at slab offset `o` over features `Z` and a stack `M`: at row `e` the form of row `e` against
    matrix `o`. Each of the program's sixteen columns is this expression, at the features it has built, the argument
    stack and its own offset. -/
theorem column (Z : FVec Ideal S800000x128 .f32) (M : FVec Ideal S16x128x128 .f32) (o : ℕ) (ho : o < 16)
    (hs : S16x128x128.Slices ![o, 0, 0] S1x128x128) (e : Fin 800000) (u : Fin 1) :
    broadcastInDim S800000x1 ![0] bcast_S800000_S800000x1_0
        (Host.reduceAdd (mulf (Host.dotGeneral dot_S800000x128_S128x128_S800000x128_1_0_0_1_n_n none Z
              (shapeCast S128x128 (extractStridedSlice S1x128x128 ![o, 0, 0] M hs) shapeCasts_S1x128x128_S128x128)) Z)
          (constant (F := Ideal) S_ .f32 0x00000000#32) reducesTo_S800000x128_S800000_d1 h_S_) (ix2 e u)
      = rowForm (fun k => Z (ix2 e k)) (fun k j => M (ix3 ⟨o, ho⟩ k j)) :=
  host_column Z M o ho hs shapeCasts_S1x128x128_S128x128 reducesTo_S800000x128_S800000_d1 h_S_ bcast_S800000_S800000x1_0 e u

variable (x0 : (⟨S50000x64, .f32⟩ : BufTy).Contents (Elt Ideal)) (x1 : (⟨S2x800000, .i32⟩ : BufTy).Contents (Elt Ideal))
  (x2 : (⟨S16x128x128, .f32⟩ : BufTy).Contents (Elt Ideal))

/-- The form of row `e` of the features the program builds against matrix `o` of the argument stack. -/
abbrev form (e : Fin 800000) (o : Fin 16) : EReal :=
  rowForm (fun k => val_main_v18 (F := Ideal) x0 x1 (ix2 e k)) (fun k j => x2 (ix3 o k j))

/-! ## The sixteen columns, each opened down to its slice of the stack -/

theorem col0 (e : Fin 800000) : val_main_v99 (F := Ideal) x0 x1 x2 (ix2 e (0 : Fin 1)) = form x0 x1 x2 e ⟨0, by decide⟩ := by
  unfold val_main_v99 val_main_v23 val_main_v22 val_main_v21 val_main_v20 val_main_v19 val_main_cst
  exact column (val_main_v18 (F := Ideal) x0 x1) x2 0 (by decide) slices_S16x128x128_S1x128x128_0_0_0 e 0
theorem col1 (e : Fin 800000) : val_main_v100 (F := Ideal) x0 x1 x2 (ix2 e (0 : Fin 1)) = form x0 x1 x2 e ⟨1, by decide⟩ := by
  unfold val_main_v100 val_main_v28 val_main_v27 val_main_v26 val_main_v25 val_main_v24 val_main_cst_3
  exact column (val_main_v18 (F := Ideal) x0 x1) x2 1 (by decide) slices_S16x128x128_S1x128x128_1_0_0 e 0
theorem col2 (e : Fin 800000) : val_main_v101 (F := Ideal) x0 x1 x2 (ix2 e (0 : Fin 1)) = form x0 x1 x2 e ⟨2, by decide⟩ := by
  unfold val_main_v101 val_main_v33 val_main_v32 val_main_v31 val_main_v30 val_main_v29 val_main_cst_4
  exact column (val_main_v18 (F := Ideal) x0 x1) x2 2 (by decide) slices_S16x128x128_S1x128x128_2_0_0 e 0
theorem col3 (e : Fin 800000) : val_main_v102 (F := Ideal) x0 x1 x2 (ix2 e (0 : Fin 1)) = form x0 x1 x2 e ⟨3, by decide⟩ := by
  unfold val_main_v102 val_main_v38 val_main_v37 val_main_v36 val_main_v35 val_main_v34 val_main_cst_5
  exact column (val_main_v18 (F := Ideal) x0 x1) x2 3 (by decide) slices_S16x128x128_S1x128x128_3_0_0 e 0
theorem col4 (e : Fin 800000) : val_main_v103 (F := Ideal) x0 x1 x2 (ix2 e (0 : Fin 1)) = form x0 x1 x2 e ⟨4, by decide⟩ := by
  unfold val_main_v103 val_main_v43 val_main_v42 val_main_v41 val_main_v40 val_main_v39 val_main_cst_6
  exact column (val_main_v18 (F := Ideal) x0 x1) x2 4 (by decide) slices_S16x128x128_S1x128x128_4_0_0 e 0
theorem col5 (e : Fin 800000) : val_main_v104 (F := Ideal) x0 x1 x2 (ix2 e (0 : Fin 1)) = form x0 x1 x2 e ⟨5, by decide⟩ := by
  unfold val_main_v104 val_main_v48 val_main_v47 val_main_v46 val_main_v45 val_main_v44 val_main_cst_7
  exact column (val_main_v18 (F := Ideal) x0 x1) x2 5 (by decide) slices_S16x128x128_S1x128x128_5_0_0 e 0
theorem col6 (e : Fin 800000) : val_main_v105 (F := Ideal) x0 x1 x2 (ix2 e (0 : Fin 1)) = form x0 x1 x2 e ⟨6, by decide⟩ := by
  unfold val_main_v105 val_main_v53 val_main_v52 val_main_v51 val_main_v50 val_main_v49 val_main_cst_8
  exact column (val_main_v18 (F := Ideal) x0 x1) x2 6 (by decide) slices_S16x128x128_S1x128x128_6_0_0 e 0
theorem col7 (e : Fin 800000) : val_main_v106 (F := Ideal) x0 x1 x2 (ix2 e (0 : Fin 1)) = form x0 x1 x2 e ⟨7, by decide⟩ := by
  unfold val_main_v106 val_main_v58 val_main_v57 val_main_v56 val_main_v55 val_main_v54 val_main_cst_9
  exact column (val_main_v18 (F := Ideal) x0 x1) x2 7 (by decide) slices_S16x128x128_S1x128x128_7_0_0 e 0
theorem col8 (e : Fin 800000) : val_main_v107 (F := Ideal) x0 x1 x2 (ix2 e (0 : Fin 1)) = form x0 x1 x2 e ⟨8, by decide⟩ := by
  unfold val_main_v107 val_main_v63 val_main_v62 val_main_v61 val_main_v60 val_main_v59 val_main_cst_10
  exact column (val_main_v18 (F := Ideal) x0 x1) x2 8 (by decide) slices_S16x128x128_S1x128x128_8_0_0 e 0
theorem col9 (e : Fin 800000) : val_main_v108 (F := Ideal) x0 x1 x2 (ix2 e (0 : Fin 1)) = form x0 x1 x2 e ⟨9, by decide⟩ := by
  unfold val_main_v108 val_main_v68 val_main_v67 val_main_v66 val_main_v65 val_main_v64 val_main_cst_11
  exact column (val_main_v18 (F := Ideal) x0 x1) x2 9 (by decide) slices_S16x128x128_S1x128x128_9_0_0 e 0
theorem col10 (e : Fin 800000) : val_main_v109 (F := Ideal) x0 x1 x2 (ix2 e (0 : Fin 1)) = form x0 x1 x2 e ⟨10, by decide⟩ := by
  unfold val_main_v109 val_main_v73 val_main_v72 val_main_v71 val_main_v70 val_main_v69 val_main_cst_12
  exact column (val_main_v18 (F := Ideal) x0 x1) x2 10 (by decide) slices_S16x128x128_S1x128x128_10_0_0 e 0
theorem col11 (e : Fin 800000) : val_main_v110 (F := Ideal) x0 x1 x2 (ix2 e (0 : Fin 1)) = form x0 x1 x2 e ⟨11, by decide⟩ := by
  unfold val_main_v110 val_main_v78 val_main_v77 val_main_v76 val_main_v75 val_main_v74 val_main_cst_13
  exact column (val_main_v18 (F := Ideal) x0 x1) x2 11 (by decide) slices_S16x128x128_S1x128x128_11_0_0 e 0
theorem col12 (e : Fin 800000) : val_main_v111 (F := Ideal) x0 x1 x2 (ix2 e (0 : Fin 1)) = form x0 x1 x2 e ⟨12, by decide⟩ := by
  unfold val_main_v111 val_main_v83 val_main_v82 val_main_v81 val_main_v80 val_main_v79 val_main_cst_14
  exact column (val_main_v18 (F := Ideal) x0 x1) x2 12 (by decide) slices_S16x128x128_S1x128x128_12_0_0 e 0
theorem col13 (e : Fin 800000) : val_main_v112 (F := Ideal) x0 x1 x2 (ix2 e (0 : Fin 1)) = form x0 x1 x2 e ⟨13, by decide⟩ := by
  unfold val_main_v112 val_main_v88 val_main_v87 val_main_v86 val_main_v85 val_main_v84 val_main_cst_15
  exact column (val_main_v18 (F := Ideal) x0 x1) x2 13 (by decide) slices_S16x128x128_S1x128x128_13_0_0 e 0
theorem col14 (e : Fin 800000) : val_main_v113 (F := Ideal) x0 x1 x2 (ix2 e (0 : Fin 1)) = form x0 x1 x2 e ⟨14, by decide⟩ := by
  unfold val_main_v113 val_main_v93 val_main_v92 val_main_v91 val_main_v90 val_main_v89 val_main_cst_16
  exact column (val_main_v18 (F := Ideal) x0 x1) x2 14 (by decide) slices_S16x128x128_S1x128x128_14_0_0 e 0
theorem col15 (e : Fin 800000) : val_main_v114 (F := Ideal) x0 x1 x2 (ix2 e (0 : Fin 1)) = form x0 x1 x2 e ⟨15, by decide⟩ := by
  unfold val_main_v114 val_main_v98 val_main_v97 val_main_v96 val_main_v95 val_main_v94 val_main_cst_17
  exact column (val_main_v18 (F := Ideal) x0 x1) x2 15 (by decide) slices_S16x128x128_S1x128x128_15_0_0 e 0

/-! ## The columns side by side -/

/-- The sixteen columns in the order the program puts them side by side. -/
def columns : Fin 16 → (S800000x1.Idx → EReal)
  | ⟨0, _⟩ => val_main_v99 (F := Ideal) x0 x1 x2
  | ⟨1, _⟩ => val_main_v100 (F := Ideal) x0 x1 x2
  | ⟨2, _⟩ => val_main_v101 (F := Ideal) x0 x1 x2
  | ⟨3, _⟩ => val_main_v102 (F := Ideal) x0 x1 x2
  | ⟨4, _⟩ => val_main_v103 (F := Ideal) x0 x1 x2
  | ⟨5, _⟩ => val_main_v104 (F := Ideal) x0 x1 x2
  | ⟨6, _⟩ => val_main_v105 (F := Ideal) x0 x1 x2
  | ⟨7, _⟩ => val_main_v106 (F := Ideal) x0 x1 x2
  | ⟨8, _⟩ => val_main_v107 (F := Ideal) x0 x1 x2
  | ⟨9, _⟩ => val_main_v108 (F := Ideal) x0 x1 x2
  | ⟨10, _⟩ => val_main_v109 (F := Ideal) x0 x1 x2
  | ⟨11, _⟩ => val_main_v110 (F := Ideal) x0 x1 x2
  | ⟨12, _⟩ => val_main_v111 (F := Ideal) x0 x1 x2
  | ⟨13, _⟩ => val_main_v112 (F := Ideal) x0 x1 x2
  | ⟨14, _⟩ => val_main_v113 (F := Ideal) x0 x1 x2
  | ⟨15, _⟩ => val_main_v114 (F := Ideal) x0 x1 x2
  | ⟨_ + 16, h⟩ => absurd h (Nat.not_lt.2 (Nat.le_add_left _ _))

/-- Column `o` at row `e` is the form of row `e` against matrix `o`. -/
theorem columns_apply (e : Fin 800000) (o : Fin 16) :
    columns x0 x1 x2 o (ix2 e (0 : Fin 1)) = form x0 x1 x2 e o := by
  match o with
  | ⟨0, _⟩ => exact col0 x0 x1 x2 e
  | ⟨1, _⟩ => exact col1 x0 x1 x2 e
  | ⟨2, _⟩ => exact col2 x0 x1 x2 e
  | ⟨3, _⟩ => exact col3 x0 x1 x2 e
  | ⟨4, _⟩ => exact col4 x0 x1 x2 e
  | ⟨5, _⟩ => exact col5 x0 x1 x2 e
  | ⟨6, _⟩ => exact col6 x0 x1 x2 e
  | ⟨7, _⟩ => exact col7 x0 x1 x2 e
  | ⟨8, _⟩ => exact col8 x0 x1 x2 e
  | ⟨9, _⟩ => exact col9 x0 x1 x2 e
  | ⟨10, _⟩ => exact col10 x0 x1 x2 e
  | ⟨11, _⟩ => exact col11 x0 x1 x2 e
  | ⟨12, _⟩ => exact col12 x0 x1 x2 e
  | ⟨13, _⟩ => exact col13 x0 x1 x2 e
  | ⟨14, _⟩ => exact col14 x0 x1 x2 e
  | ⟨15, _⟩ => exact col15 x0 x1 x2 e
  | ⟨_ + 16, h⟩ => exact absurd h (Nat.not_lt.2 (Nat.le_add_left _ _))

/-- The program's concatenation is the concatenation of that family. -/
theorem concat_eq : val_main_v115 (F := Ideal) x0 x1 x2
    = concatenate S800000x16 1 (sixteen (columns x0 x1 x2))
        concatenates_S800000x1_S800000x1_S800000x1_S800000x1_S800000x1_S800000x1_S800000x1_S800000x1_S800000x1_S800000x1_S800000x1_S800000x1_S800000x1_S800000x1_S800000x1_S800000x1_S800000x16_d1 := by
  unfold val_main_v115
  rfl

/-- The columns side by side, then the tangent: `edgeForms` of the features and the stack. -/
theorem forms_eq : val_main_v116 (F := Ideal) x0 x1 x2 = edgeForms (val_main_v18 (F := Ideal) x0 x1) x2 := by
  funext i
  obtain ⟨e, o, rfl⟩ : ∃ (e : Fin 800000) (o : Fin 16), i = ix2 e o := ⟨i 0, i 1, eq_ix2 i⟩
  rw [val_main_v116_apply, Ideal.hostUnary_tanh_def, concat_eq, sixteen_columns_apply, columns_apply]
  rfl

/-- The reference's result: that array viewed as `[800000, 4, 4]`. -/
theorem result_eq : val_main_v117 (F := Ideal) x0 x1 x2
    = shapeCast S800000x4x4 (edgeForms (val_main_v18 (F := Ideal) x0 x1) x2) shapeCasts_S800000x16_S800000x4x4 := by
  unfold val_main_v117
  rw [forms_eq]

end Cert.ReferenceIdeal.RefValue

end
-- ==== Proof.Bridge.lean ====
/-
  The two programs compute one function of the arguments.

  Both programs build the edge features from the node features and the edge list with the same host lines (two
  index rows taken out of the edge list, negative indices wrapped, two row gathers, the two gathered halves put side
  by side), so the features the kernel's region finds are the features the reference multiplies. The kernel's output
  array is `edgeForms` of them and the stack, and so is the reference's array before its last line; both programs end by
  viewing that array as `[800000, 4, 4]`. No law of arithmetic is used beyond reading each sum where it stands, so
  the inputs' finiteness is not needed.
-/
import proofs.«120045_j9174050144889_1_alg».proof.Defs
import proofs.«120045_j9174050144889_1_alg».proof.Proof.KernelArray
import proofs.«120045_j9174050144889_1_alg».proof.Proof.RefValue
import proofs.«120045_j9174050144889_1_alg».proof.Proof.Gen.Pre_finite_inputs

set_option maxRecDepth 16384

noncomputable section

namespace Cert.Proof.Bridge

open Idealize.ShloMosaic Idealize.ShloMosaic.TcCoe Idealize.SL.Sem Cert.QuadForm

variable (m : (ℓ : Loc Cert.KernelIdeal.nD Cert.KernelIdeal.τ Cert.KernelIdeal.sig) → Buf (Elt Ideal) ℓ)

set_option maxHeartbeats 4000000 in
/-- The features the region finds are the reference's features of the same arguments: the host lines that build them are
    the same in both programs. -/
theorem feats_eq (c : Dev Cert.KernelIdeal.nD) :
    Cert.KernelIdeal.Whole.feats m c
      = Cert.ReferenceIdeal.Read.val_main_v18 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  dsimp only [Cert.KernelIdeal.Whole.feats, Cert.KernelIdeal.Gen.V, Cert.KernelIdeal.Gen.V0]
  simp only [Cert.KernelIdeal.Gen.hostOps0, List.flatten_cons, List.flatten_nil, List.append_nil, List.cons_append,
    List.nil_append]
  after_results
  rfl

/-- The stack the region finds is the argument: no host line writes it. -/
theorem stack_eq (c : Dev Cert.KernelIdeal.nD) :
    Cert.KernelIdeal.Whole.stack m c
      = m ((c.tc : Thread Cert.KernelIdeal.nD Cert.KernelIdeal.τ).loc Cert.KernelIdeal.main_arg2) :=
  Cert.KernelIdeal.Gen.V_main_arg2 m c

/-- From memories that agree on the arguments both programs end with the reshaped `edgeForms` of the features and the
    stack. -/
theorem algebraic : Cert.algebraic_KernelIdeal_ReferenceIdeal := by
  intro m ρ m' ρ' _ hagree
  refine ⟨fun c => shapeCast Cert.KernelIdeal.S800000x4x4
      (edgeForms (Cert.KernelIdeal.Whole.feats m c) (Cert.KernelIdeal.Whole.stack m c))
      Cert.KernelIdeal.Gen.shapeCasts_S800000x16_S800000x4x4, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v117 m' c = shapeCast Cert.KernelIdeal.S800000x4x4
      (edgeForms (Cert.KernelIdeal.Whole.feats m c) (Cert.KernelIdeal.Whole.stack m c))
      Cert.KernelIdeal.Gen.shapeCasts_S800000x16_S800000x4x4
  rw [Cert.ReferenceIdeal.Read.val_main_v117_eq, Cert.ReferenceIdeal.RefValue.result_eq,
    (hagree c).1, (hagree c).2.1, (hagree c).2.2, feats_eq m c, stack_eq m c]

end Cert.Proof.Bridge

end
-- ==== Proof.lean ====
/-
  Sixteen quadratic forms per edge, and their hyperbolic tangents.

  For each of 800000 edges the programs put the two end nodes' 64 features side by side into a row `z` of 128 numbers
  and compute, for each of sixteen 128 × 128 matrices `M_o`, the number `tanh (zᵀ M_o z)`, summed as
  `∑ j, (∑ k, z k · M_o k j) · z j`; the results are laid out as `[800000, 4, 4]`. The kernel does this 6400 edges at a
  time on the vector and matrix units (the product's operands narrowed to bf16, which over the extended reals
  changes nothing), the reference for all edges at once on the host. Over the extended reals both are the same
  sums in the same order, so the results are equal entry by entry whatever the inputs.

  The three frames are the generated ones (the reference's is its generated run with the result dropped); the idealized
  kernel is the kernel's own text read over the extended reals, with no operation replaced, so the preservation claim
  is `True`; the equality of results is `Bridge.algebraic`.
-/
import proofs.«120045_j9174050144889_1_alg».proof.Defs
import proofs.«120045_j9174050144889_1_alg».proof.Proof.Gen.Kernel
import proofs.«120045_j9174050144889_1_alg».proof.Proof.Gen.Kernel.Skeleton
import proofs.«120045_j9174050144889_1_alg».proof.Proof.Gen.Kernel.Launch
import proofs.«120045_j9174050144889_1_alg».proof.Proof.Gen.Kernel.Points
import proofs.«120045_j9174050144889_1_alg».proof.Proof.Gen.Kernel.Frame
import proofs.«120045_j9174050144889_1_alg».proof.Proof.Gen.KernelIdeal
import proofs.«120045_j9174050144889_1_alg».proof.Proof.Gen.KernelIdeal.Skeleton
import proofs.«120045_j9174050144889_1_alg».proof.Proof.Gen.KernelIdeal.Launch
import proofs.«120045_j9174050144889_1_alg».proof.Proof.Gen.KernelIdeal.Points
import proofs.«120045_j9174050144889_1_alg».proof.Proof.Gen.KernelIdeal.Frame
import proofs.«120045_j9174050144889_1_alg».proof.Proof.Gen.ReferenceIdeal
import proofs.«120045_j9174050144889_1_alg».proof.Proof.Gen.ReferenceIdeal.Run
import proofs.«120045_j9174050144889_1_alg».proof.Proof.Gen.Pre_finite_inputs
import proofs.«120045_j9174050144889_1_alg».proof.Proof.Bridge
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    Cert.Proof.Bridge.algebraic⟩

end Cert.Proof

end
